-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x4096 .f32) (main_arg1 : FVec F S4096x64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4096x4096 : Shape := ⟨2, ![4096, 4096]⟩
abbrev S4096x64 : Shape := ⟨2, ![4096, 64]⟩
abbrev S8x512x4096 : Shape := ⟨3, ![8, 512, 4096]⟩
abbrev S4x1024x64 : Shape := ⟨3, ![4, 1024, 64]⟩
abbrev S1x512x4096 : Shape := ⟨3, ![1, 512, 4096]⟩
abbrev S1x1024x64 : Shape := ⟨3, ![1, 1024, 64]⟩
abbrev S512x4096 : Shape := ⟨2, ![512, 4096]⟩
abbrev S512x64 : Shape := ⟨2, ![512, 64]⟩
abbrev S1x512x64 : Shape := ⟨3, ![1, 512, 64]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S8x512x4096, .f32⟩
  | .hbm, ⟨3, _⟩ => ⟨S4x1024x64, .f32⟩
  | .hbm, ⟨4, _⟩ => ⟨S4096x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S4096x64, .f32⟩
  | .local _ .vmem, ⟨5, _⟩ => ⟨S1x1024x64, .f32⟩
  | .local _ .vmem, ⟨6, _⟩ => ⟨S1x1024x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4096_S8x512x4096 : S4096x4096.ShapeCasts S8x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S4096x64_S4096x64_0_0 : ∀ a, (![0, 0] : Fin 2 → Nat) a + S4096x64.size a ≤ S4096x64.size a
  h_S4096x64 : 0 < S4096x64.numel
  inb_S1x1024x64_S1x512x64_0_0_0 : ∀ a, (![0, 0, 0] : Fin 3 → Nat) a + S1x512x64.size a ≤ S1x1024x64.size a
  h_S1x512x64 : 0 < S1x512x64.numel
  shapeCasts_S1x512x64_S512x64 : S1x512x64.ShapeCasts S512x64
  shapeCasts_S512x64_S1x512x64 : S512x64.ShapeCasts S1x512x64
  inb_S1x1024x64_S1x512x64_0_512_0 : ∀ a, (![0, 512, 0] : Fin 3 → Nat) a + S1x512x64.size a ≤ S1x1024x64.size a
  shapeCasts_S4x1024x64_S4096x64 : S4x1024x64.ShapeCasts S4096x64
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .f32 = 32 ∨ (Rect.block (s := S8x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x4096.size a
  hwx0_1 : ∀ i : grid0.Coords, EltTy.bits .f32 = 32 ∨ (Rect.block (s := S8x512x4096) S1x512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x1024x64.size a
  hwx0_3 : ∀ i : grid0.Coords, EltTy.bits .f32 = 32 ∨ (Rect.block (s := S4x1024x64) S1x1024x64.size (cc0_transform_3 i) (hinb0_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x64 : Shape := ⟨2, ![4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Body.lean ====
/-
  The kernel region of the program as printed, read for any float values.

  One grid point multiplies TWO consecutive 512-row chunks of the adjacency by the whole 4096×64 embedding
  block: rows 0–511 of the point's 1024-row output block are chunk `2t` times the embeddings, rows 512–1023 are
  chunk `2t+1` times the embeddings. Both chunks are windows onto ONE array (the adjacency re-laid as
  8 × 512 × 4096), at block indices `2t` and `2t+1`.

  This module states what the region is entered with (the host re-laying before it), what the two stores leave in
  the output's staging buffer as a function of the three staged blocks, and proves the body's triple: holding the
  three input buffers at read contents and the output buffer at anything, the body ends holding the inputs
  unchanged and the output at that function.
-/
import proofs.«161664_g85925115724063_cont_9to1c4b_375_27_alg».proof.Proof.Gen.Kernel.Launch
import proofs.«161664_g85925115724063_cont_9to1c4b_375_27_alg».proof.Proof.Gen.Kernel.Skeleton
import proofs.«161664_g85925115724063_cont_9to1c4b_375_27_alg».proof.Proof.Gen.Kernel.Points
import Idealize.ShloMosaic.Lib.Pipeline.FrameBody
import Idealize.ShloMosaic.Lib.Pipeline.FrameSuffix
import Idealize.ShloMosaic.Lib.Writes
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region is entered with -/

/-- Core `c`'s buffers when the region is entered: the launch memory after the one host line before the region,
    which re-lays the adjacency [4096, 4096] as [8, 512, 4096]. -/
abbrev entryVal (c : Dev nD) : Valuation τ sig (Elt F) := StableHlo.after (List.flatten [hostOps0]) (fun b => m (c, b))
/-- The same at a TensorCore reference. -/
abbrev atEntry (c : Dev nD) (b : Ref sig .tc) : Buf (Elt F) ((c : Thread nD τ).loc b) := entryVal m c (Proc.devRef .tc b)

/-- @main is: the re-laying line, the region, the line that re-lays the result; so it reduces to the region
    continued by that last line, entered at `atEntry`. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall, hostOps0]; exact rfl) main_chain

/-! ## What the two stores leave -/

/-- The whole adjacency chunk, the whole embedding block, and the two row halves of the output block, as the
    rectangles the body loads and stores through. -/
abbrev wholeChunk : Rect S1x512x4096 := Rect.unit (s := S1x512x4096) ![0, 0, 0] S1x512x4096.size inb_S1x512x4096_S1x512x4096_0_0_0
abbrev wholeEmb : Rect S4096x64 := Rect.unit (s := S4096x64) ![0, 0] S4096x64.size inb_S4096x64_S4096x64_0_0
abbrev rowsLo : Rect S1x1024x64 := Rect.unit (s := S1x1024x64) ![0, 0, 0] S1x512x64.size inb_S1x1024x64_S1x512x64_0_0_0
abbrev rowsHi : Rect S1x1024x64 := Rect.unit (s := S1x1024x64) ![0, 512, 0] S1x512x64.size inb_S1x1024x64_S1x512x64_0_512_0

/-- The output block after the body, from the two staged chunks `a0`, `a1` and the staged embeddings `e`: the upper
    store (rows 512–1023, the second chunk's product) over the lower one (rows 0–511, the first chunk's). -/
def twoProducts (a0 a1 : Vec F S1x512x4096 .f32) (e : Vec F S4096x64 .f32) : Vec F S1x1024x64 .f32 :=
  View.canon [⟨rowsHi, k0_pay2 (View.ld a1 wholeChunk) (View.ld e wholeEmb)⟩, ⟨rowsLo, k0_pay1 (View.ld a0 wholeChunk) (View.ld e wholeEmb)⟩]

/-- The two half-height stores fill the 1024-row block. -/
theorem halves_fill (p q : Vec F S1x512x64 .f32) (y : S1x1024x64.Idx) :
    ∃ pc ∈ ([⟨rowsHi, p⟩, ⟨rowsLo, q⟩] : List (View.Piece (Elt F) S1x1024x64 .f32)), y ∈ pc.1.set :=
  View.cover_of_tiled [⟨rowsHi, p⟩, ⟨rowsLo, q⟩] S1x512x64.size (by rfl) y

/-! ## The body's triple -/

set_option maxHeartbeats 1000000 in
/-- Holding the two chunk buffers at `a0`, `a1`, the embedding buffer at `e` and the output buffer at anything, the
    body runs to the end holding the inputs as they were and the output at `twoProducts a0 a1 e`. (It also loads
    each output half before storing it; those values are not used.) -/
theorem body_triple (c : Dev nD) (E : Set ℕ) (i : grid0.Coords)
    (arg1 : Memref sig .tc .vmem S1x512x4096 .f32) (harg1 : arg1.IsWhole) (arg2 : Memref sig .tc .vmem S1x512x4096 .f32) (harg2 : arg2.IsWhole)
    (arg3 : Memref sig .tc .vmem S4096x64 .f32) (harg3 : arg3.IsWhole) (arg4 : Memref sig .tc .vmem S1x1024x64 .f32) (harg4 : arg4.IsWhole)
    (a0 a1 : Vec F S1x512x4096 .f32) (e : Vec F S4096x64 .f32) (K : PUnit → sProp 𝕄) :
    iprop(owns (c : Thread nD τ) arg1 fullShare a0 ∗ owns (c : Thread nD τ) arg2 fullShare a1 ∗ owns (c : Thread nD τ) arg3 fullShare e
        ∗ (∃ d, owns (c : Thread nD τ) arg4 fullShare d)
        ∗ (iprop(owns (c : Thread nD τ) arg1 fullShare a0 ∗ owns (c : Thread nD τ) arg2 fullShare a1 ∗ owns (c : Thread nD τ) arg3 fullShare e
            ∗ owns (c : Thread nD τ) arg4 fullShare (twoProducts a0 a1 e)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f1, %hf1, H1⟩, ⟨%f2, %hf2, H2⟩, ⟨%f3, %hf3, H3⟩, ⟨%d, %f4, -, H4⟩, Hk⟩
  subst hf1; subst hf2; subst hf3
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap
  · iexact H4
  ipureintro
  exact View.read_writes_eq_canon _ _ _ (halves_fill _ _)

end Cert.Kernel.Hand

end
-- ==== Proof.K.Data.lean ====
/-
  The proof data of the one kernel region, for any float values: what each window's array holds when the region
  is entered, what each staging buffer holds after the body at each grid point, and the share of each array each
  window works with.

  The adjacency (re-laid as 8 × 512 × 4096) is read through TWO windows, the even chunk `2t` and the odd chunk
  `2t+1`; the core's hold on that one array is dealt between them, the left half of the full share to the even
  window and the right half to the odd one. The embeddings are one whole block, the same at every point. The output
  block at point `t` is the two chunk products one over the other.

  Then the body obligation at every grid point: each input buffer holds its block, fetched at that point or kept
  from an earlier one, so the body's triple applies.
-/
import proofs.«161664_g85925115724063_cont_9to1c4b_375_27_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The region's proof data on core `c`. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => twoProducts (blockAt m c 0 t) (blockAt m c 1 t) (blockAt m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem entry_eq (c : Dev nD) (w : Fin cfg0.W) : (regionData m 0 c).A w = atEntry m c (Pipeline.arrRef spec0 w) := by
  dsimp only [regionData]

theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) :
    (regionData m 0 c).after 3 t = twoProducts (blockAt m c 0 t) (blockAt m c 1 t) (blockAt m c 2 t) := by dsimp only [regionData]

/-- An input window's buffer holds its block at every point: a body that leaves the block in place finds, at a point
    that does not fetch, the block of the point before, whose index is the same. -/
theorem found0 (c : Dev nD) (t : Fin cfg0.N) (d) : (regionData m 0 c).before 0 t d = blockAt m c 0 t :=
  ((regionData m 0 c).before_in_eq_fetched 0 rfl (fun _ => rfl) (fun _ _ _ => rfl)
    (fun t => by rw [left0]; unfold Dat.blockOf blockAt; rw [entry_eq]; try rfl) t d).trans
    (by unfold Dat.fetched Dat.blockOf blockAt; rw [entry_eq]; try rfl)
theorem found1 (c : Dev nD) (t : Fin cfg0.N) (d) : (regionData m 0 c).before 1 t d = blockAt m c 1 t :=
  ((regionData m 0 c).before_in_eq_fetched 1 rfl (fun _ => rfl) (fun _ _ _ => rfl)
    (fun t => by rw [left1]; unfold Dat.blockOf blockAt; rw [entry_eq]; try rfl) t d).trans
    (by unfold Dat.fetched Dat.blockOf blockAt; rw [entry_eq]; try rfl)
theorem found2 (c : Dev nD) (t : Fin cfg0.N) (d) : (regionData m 0 c).before 2 t d = blockAt m c 2 t :=
  ((regionData m 0 c).before_in_eq_fetched 2 rfl (fun _ => rfl) (fun _ _ _ => rfl)
    (fun t => by rw [left2]; unfold Dat.blockOf blockAt; rw [entry_eq]; try rfl) t d).trans
    (by unfold Dat.fetched Dat.blockOf blockAt; rw [entry_eq]; try rfl)

/-- The body obligation at every grid point. -/
theorem body_obligation (c : Dev nD) : BodyObligation (regionData (F := F) m 0 c) (defs₀ (F := F)) Variants.none () Set.univ := fun t => by
  rw [bigSep_W0, bigSep_W0]
  show iprop((regionData m 0 c).Φ t.castSucc ∗ (regionData m 0 c).owesAt () t.castSucc
      ∗ (∃ d, owns (c : Thread nD τ) (st0_0 t) fullShare ((regionData m 0 c).before 0 t d))
      ∗ (∃ d, owns (c : Thread nD τ) (st0_1 t) fullShare ((regionData m 0 c).before 1 t d))
      ∗ (∃ d, owns (c : Thread nD τ) (st0_2 t) fullShare ((regionData m 0 c).before 2 t d))
      ∗ (∃ d, owns (c : Thread nD τ) (st0_3 t) fullShare ((regionData m 0 c).before 3 t d)))
    ⊢ wp frame (wpE (defs₀ (F := F)) Variants.none c none) Set.univ (bodyAt0 t) (fun _ =>
      iprop((regionData m 0 c).Φ t.succ ∗ (regionData m 0 c).owesAt () t.succ
        ∗ owns (c : Thread nD τ) (st0_0 t) fullShare ((regionData m 0 c).after 0 t)
        ∗ owns (c : Thread nD τ) (st0_1 t) fullShare ((regionData m 0 c).after 1 t)
        ∗ owns (c : Thread nD τ) (st0_2 t) fullShare ((regionData m 0 c).after 2 t)
        ∗ owns (c : Thread nD τ) (st0_3 t) fullShare ((regionData m 0 c).after 3 t)))
  simp only [found0, found1, found2]
  rw [left0, left1, left2, left3,
    show (regionData m 0 c).Φ t.succ = (regionData m 0 c).Φ t.castSucc from rfl,
    show (regionData m 0 c).owesAt () t.succ = (regionData m 0 c).owesAt () t.castSucc from rfl]
  iintro ⟨HΦ, Ho, ⟨%d0, H0⟩, ⟨%d1, H1⟩, ⟨%d2, H2⟩, ⟨%d3, H3⟩⟩
  unfold bodyAt0
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## What the program ends with -/

/-- Core `c`'s buffers when the region is left: as it was entered, but for the kernel's result array
    [4, 1024, 64], which holds what the four write-backs made of it. -/
def exitVal (c : Dev nD) : Valuation τ sig (Elt F) :=
  Function.update (entryVal m c) (Proc.devRef .tc main_v1) ((regionData m 0 c).arrAt 3 cfg0.N)

/-- The program's result [4096, 64]: the last host line, which re-lays the kernel's result array, applied to the
    buffers as the region left them. -/
def result (c : Dev nD) : Buf (Elt F) ((c : Thread nD τ).loc main_v2) :=
  StableHlo.after hostOps1 (exitVal m c) (Proc.devRef .tc main_v2)

end Cert.Kernel.Hand

end
-- ==== Proof.K.Plumbing.lean ====
/-
  The separation-logic bookkeeping around the region, for any float values.

  At entry the core holds each of the three distinct buffers behind the four windows whole, at the full share. The
  adjacency buffer serves two windows, so its full share is cut in two, the left half for the even-chunk window and
  the right half for the odd-chunk one (`deal_arrays`).

  At exit the arrays come back at their final contents; the line after the region re-lays the kernel's result
  array [4, 1024, 64] as the program's result [4096, 64], reading the one and writing the other, and everything
  else stays as it was (`relay_result`).
-/
import proofs.«161664_g85925115724063_cont_9to1c4b_375_27_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two buffers the region passes by, after the last host line: the adjacency argument as launched-and-entered,
    the program's result at `result`. -/
def leftOver (c : Dev nD) : sProp 𝕄 :=
  iprop((((c : Thread nD τ).loc main_arg0) ↦{fullShare} atEntry m c main_arg0) ∗ (((c : Thread nD τ).loc main_v2) ↦{fullShare} result m c))

/-- The four windows stand on three distinct buffers: the re-laid adjacency (twice), the embeddings, the result array. -/
theorem arrRefs_eq : Finset.univ.image (Pipeline.arrRef spec0) = [main_v0, main_arg1, main_v1].toFinset := by decide

/-- The share each window's array is held at: the two halves of the full share for the adjacency's two windows, the
    full share for the embeddings (an input on its own buffer) and for the result array (an output). -/
theorem share0 (c : Dev nD) : (regionData m 0 c).share 0 = fullShare.left := rfl
theorem share1 (c : Dev nD) : (regionData m 0 c).share 1 = fullShare.right := rfl
theorem share2 (c : Dev nD) : (regionData m 0 c).share 2 = fullShare := rfl
theorem share3 (c : Dev nD) : (regionData m 0 c).share 3 = fullShare := rfl

/-- ENTRY: the three distinct buffers behind the windows, whole at the full share at the entry contents, are the
    proof data's arrays at entry — the adjacency buffer's share cut in two for its two windows. -/
theorem deal_arrays (c : Dev nD) :
    (Pipeline.arrBufs (Ix := Unit) (Name := ℕ) (U := UR sig nD τ) (Lvl := ℕ) spec0 c (atEntry m c) : sProp 𝕄)
      ⊢ (regionData m 0 c).arrays ((regionData m 0 c).arrAt · 0) := by
  unfold Pipeline.arrBufs Dat.arrays
  rw [bigSep_eq_bigSepL_of_eq [main_v0, main_arg1, main_v1] arrRefs_eq (by decide), bigSep_W0]
  simp only [bigSepL_cons_cons, bigSepL_singleton, View.set_whole]
  rw [share0, share1, share2, share3]
  show iprop((c.tc.loc main_v0 ↦{fullShare} atEntry m c main_v0) ∗ (c.tc.loc main_arg1 ↦{fullShare} atEntry m c main_arg1)
        ∗ (c.tc.loc main_v1 ↦{fullShare} atEntry m c main_v1))
      ⊢ iprop((c.tc.loc main_v0 ↦{fullShare.left} atEntry m c main_v0) ∗ (c.tc.loc main_v0 ↦{fullShare.right} atEntry m c main_v0)
        ∗ (c.tc.loc main_arg1 ↦{fullShare} atEntry m c main_arg1) ∗ (c.tc.loc main_v1 ↦{fullShare} atEntry m c main_v1))
  iintro ⟨H0, H1, H2⟩
  -- the adjacency buffer's full share, cut in its two halves
  ihave H0 := (pointsTo_share (PosShare.mem_left_op_right fullShare)).1 $$ H0
  icases H0 with ⟨Ha, Hb⟩
  isplitl [Ha]; · iexact Ha
  isplitl [Hb]; · iexact Hb
  isplitl [H1]; · iexact H1
  iexact H2

/-- The two buffers the last host line touches: it reads the kernel's result array and writes the program's result. -/
abbrev lastRefs : Finset (DevRef τ sig) := {Proc.devRef .tc main_v1, Proc.devRef .tc main_v2}

/-- They are two buffers. -/
theorem v1_ne_v2 : (Proc.devRef .tc main_v1 : DevRef τ sig) ∉ ({Proc.devRef .tc main_v2} : Finset (DevRef τ sig)) := by decide

/-- At the region's exit the result array holds what the write-backs made of it. -/
theorem exit_v1 (c : Dev nD) : exitVal m c (Proc.devRef .tc main_v1) = (regionData m 0 c).arrAt 3 cfg0.N := by
  unfold exitVal; exact Function.update_self ..

/-- And the program's result buffer still what it held at entry. -/
theorem exit_v2 (c : Dev nD) : exitVal m c (Proc.devRef .tc main_v2) = atEntry m c main_v2 := by
  unfold exitVal; exact Function.update_of_ne (by decide) ..

/-- The last line does not write the result array. -/
theorem after_v1 (c : Dev nD) : StableHlo.after hostOps1 (exitVal m c) (Proc.devRef .tc main_v1) = (regionData m 0 c).arrAt 3 cfg0.N := by
  rw [StableHlo.after_of_forall_not_mem hostOps1 _ (fun op hop => ?_), exit_v1]
  rw [List.mem_singleton] at hop; subst hop
  exact v1_ne_v2

/-- The last line's two buffers held at the exit contents: window 3's array at its final contents, and the
    program's result buffer at its entry contents. -/
theorem held_exit (c : Dev nD) :
    (StableHlo.held (c.tc : Thread nD τ) lastRefs (exitVal m c) : sProp 𝕄)
      = iprop((View.loc c.tc (View.whole main_v1) ↦{fullShare} (regionData m 0 c).arrAt 3 cfg0.N) ∗ (c.tc.loc main_v2 ↦{fullShare} atEntry m c main_v2)) := by
  unfold StableHlo.held lastRefs
  rw [bigSep_insert v1_ne_v2, bigSep_singleton, exit_v1, exit_v2]
  rfl

/-- The same held after the line: the array as it was, the program's result buffer at `result`. -/
theorem held_result (c : Dev nD) :
    (StableHlo.held (c.tc : Thread nD τ) lastRefs (StableHlo.after hostOps1 (exitVal m c)) : sProp 𝕄)
      = iprop((View.loc c.tc (View.whole main_v1) ↦{fullShare} (regionData m 0 c).arrAt 3 cfg0.N) ∗ (c.tc.loc main_v2 ↦{fullShare} result m c)) := by
  unfold StableHlo.held lastRefs
  rw [bigSep_insert v1_ne_v2, bigSep_singleton, after_v1]
  rfl

/-- EXIT: from the arrays at their final contents and the two bypassing buffers at their entry contents, the last
    host line runs, and hands back the arrays as they were and the bypassing buffers at `leftOver`. -/
theorem relay_result (𝒱₀ : Variants) (c : Dev nD) (Q' : PUnit → sProp 𝕄) :
    iprop((iprop((regionData m 0 c).arrays ((regionData m 0 c).arrAt · cfg0.N) ∗ leftOver m c) -∗ Q' ⟨⟩)
        ∗ boundary (c.tc : Thread nD τ) ∗ (regionData m 0 c).arrays ((regionData m 0 c).arrAt · cfg0.N)
        ∗ Pipeline.unscopedRest (Ix := Unit) (Name := ℕ) (U := UR sig nD τ) (Lvl := ℕ) spec0 c (atEntry m c))
      ⊢ wp frame (wpE (defs (F := F)) (Variants.lift 𝒱₀) (c.tc : Thread nD τ) none) Set.univ
          (Pipeline.chain [StableHlo.seq hostOps1]) Q' := by
  rw [unscopedRest0_eq]
  unfold Dat.arrays leftOver defs
  rw [bigSep_W0]
  simp only [View.set_whole]
  rw [share0, share1, share2, share3]
  -- the last line run on its two buffers, from the exit contents: the continuation is reached holding them at the
  -- contents after the line
  have key := Pipeline.wp_seqs_then (Ix := Unit) (Name := ℕ) (U := UR sig nD τ) (Lvl := ℕ) (pcfgs (F := F)) defs₀ 𝒱₀ c lastRefs [] (K := Q')
    [hostOps1] (fun ops ho op h => by
      rw [List.mem_singleton] at ho; subst ho; rw [List.mem_singleton] at h; subst h; exact Finset.Subset.refl _)
    (fun ops ho op h => by
      rw [List.mem_singleton] at ho; subst ho; rw [List.mem_singleton] at h; subst h; rfl) (exitVal m c)
  simp only [List.map_cons, List.map_nil, List.cons_append, List.nil_append, List.flatten_cons, List.flatten_nil, List.append_nil] at key
  rw [held_exit, held_result, Pipeline.chain_nil, wp_pure] at key
  iintro ⟨Hk, Hb, ⟨A0, A1, A2, A3⟩, R0, R2⟩
  -- the result array comes out of the arrays, the program's result out of the bypassing buffers
  iapply key $$ [Hb A3 R2]
  · isplitl [Hb]; · iexact Hb
    isplitl [A3]; · iexact A3
    iexact R2
  iintro ⟨Hb, A3, R2⟩
  imodintro
  iapply Hk
  -- the result array goes back among the arrays, unchanged; the program's result joins the adjacency argument
  isplitl [A0 A1 A2 A3]
  · isplitl [A0]; · iexact A0
    isplitl [A1]; · iexact A1
    isplitl [A2]; · iexact A2
    iexact A3
  isplitl [R0]; · iexact R0
  iexact R2

end Cert.Kernel.Hand

end
-- ==== Proof.K.Launch.lean ====
/-
  The run of the whole program, for any float values: from any memory with zero semaphore counters every weakly
  fair execution of @main terminates, nothing faulting; the program's result [4096, 64] ends at `result` (the
  re-laying of what the four write-backs made of the kernel's result array), and the two arguments end as
  launched — the embeddings are an input window's array, which nothing writes, and the adjacency passes the region
  by and no host line writes it.
-/
import proofs.«161664_g85925115724063_cont_9to1c4b_375_27_alg».proof.Proof.K.Plumbing

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line before the region writes the embeddings: the region finds them as launched. -/
theorem entry_emb (c : Dev nD) : atEntry m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-- Nor the adjacency argument. -/
theorem entry_adj (c : Dev nD) : atEntry m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results

/-- The region's invariant is the scoped buffers no window stages: it is entered with them, -/
theorem inv_in (c : Dev nD) (P : sProp 𝕄) :
    iprop(emp ∗ P ∗ Pipeline.scopedRest (Ix := Unit) (Name := ℕ) (U := UR sig nD τ) (Lvl := ℕ) (Val := Elt F) spec0 c) ⊢ (regionData m 0 c).Φ 0 := by
  show _ ⊢ Pipeline.scopedRest (Ix := Unit) (Name := ℕ) (U := UR sig nD τ) (Lvl := ℕ) (Val := Elt F) spec0 c
  iintro ⟨-, -, H⟩; iexact H

/-- and gives them back. -/
theorem inv_out (c : Dev nD) :
    (regionData m 0 c).Φ (Fin.last cfg0.N) ⊢ iprop(emp ∗ Pipeline.scopedRest (Ix := Unit) (Name := ℕ) (U := UR sig nD τ) (Lvl := ℕ) (Val := Elt F) spec0 c) := by
  show Pipeline.scopedRest (Ix := Unit) (Name := ℕ) (U := UR sig nD τ) (Lvl := ℕ) (Val := Elt F) spec0 c ⊢ _
  iintro H; isplitr
  · iempintro
  · iexact H

theorem run_main : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun p => (cfgs p).toPCfg (Val := Elt F)) (fun p => (cfgs p).toPCfg_adm) (regionData m) ()
    cellOf_inj (0 : Fin 1) winFacts₀0 (Pipeline.PreFacts.none _) emb₁ defs₀ Variants.none m ρ main
    (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := main_around m Variants.none)
    (hsplit := deal_arrays m) (hpf := fun _ k => k.elim0)
    (X := fun _ => iprop(emp)) (Y := fun _ => iprop(emp))
    (Z := fun c => Pipeline.unscopedRest (Ix := Unit) (Name := ℕ) (U := UR sig nD τ) (Lvl := ℕ) spec0 c (atEntry m c))
    (Z' := leftOver m)
    (hX := fun c => by
      rw [Pipeline.unscopedRestP_none]
      iintro H; isplitr
      · iempintro
      · iexact H)
    (hin := fun c => inv_in m c _)
    (hout := fun c => inv_out m c)
    (htail := relay_result m Variants.none)
    (QY := fun c s => s.mem ((c.tc : Thread nD τ).loc main_arg0) = atEntry m c main_arg0
      ∧ s.mem ((c.tc : Thread nD τ).loc main_v2) = result m c)
    (hY := fun c s' => by
      unfold leftOver
      iintro ⟨-, ⟨H0, H2⟩, HSI⟩
      icombine HSI H0 gives %h0
      icombine HSI H2 gives %h2
      imodintro
      isplitr
      · ipureintro; exact ⟨Buf.eq_of_forall_mem_univ h0, Buf.eq_of_forall_mem_univ h2⟩
      · iexact HSI)
    (hQ := fun s h c => ⟨(h c).2.2.2, (h c).2.2.1.trans (entry_adj m c),
      ((h c).1 2).trans (((regionData m 0 c).arrAt_in 2 rfl _).trans ((entry_eq m c 2).trans (entry_emb m c)))⟩)

end Cert.Kernel.Hand

end
-- ==== Proof.KI.Body.lean ====
/-
  The kernel region of the idealized program, read for any float values.

  One grid point multiplies TWO consecutive 512-row chunks of the adjacency by the whole 4096×64 embedding
  block: rows 0–511 of the point's 1024-row output block are chunk `2t` times the embeddings, rows 512–1023 are
  chunk `2t+1` times the embeddings. Both chunks are windows onto ONE array (the adjacency re-laid as
  8 × 512 × 4096), at block indices `2t` and `2t+1`.

  This module states what the region is entered with (the host re-laying before it), what the two stores leave in
  the output's staging buffer as a function of the three staged blocks, and proves the body's triple: holding the
  three input buffers at read contents and the output buffer at anything, the body ends holding the inputs
  unchanged and the output at that function.
-/
import proofs.«161664_g85925115724063_cont_9to1c4b_375_27_alg».proof.Proof.Gen.KernelIdeal.Launch
import proofs.«161664_g85925115724063_cont_9to1c4b_375_27_alg».proof.Proof.Gen.KernelIdeal.Skeleton
import proofs.«161664_g85925115724063_cont_9to1c4b_375_27_alg».proof.Proof.Gen.KernelIdeal.Points
import Idealize.ShloMosaic.Lib.Pipeline.FrameBody
import Idealize.ShloMosaic.Lib.Pipeline.FrameSuffix
import Idealize.ShloMosaic.Lib.Writes
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region is entered with -/

/-- Core `c`'s buffers when the region is entered: the launch memory after the one host line before the region,
    which re-lays the adjacency [4096, 4096] as [8, 512, 4096]. -/
abbrev entryVal (c : Dev nD) : Valuation τ sig (Elt F) := StableHlo.after (List.flatten [hostOps0]) (fun b => m (c, b))
/-- The same at a TensorCore reference. -/
abbrev atEntry (c : Dev nD) (b : Ref sig .tc) : Buf (Elt F) ((c : Thread nD τ).loc b) := entryVal m c (Proc.devRef .tc b)

/-- @main is: the re-laying line, the region, the line that re-lays the result; so it reduces to the region
    continued by that last line, entered at `atEntry`. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall, hostOps0]; exact rfl) main_chain

/-! ## What the two stores leave -/

/-- The whole adjacency chunk, the whole embedding block, and the two row halves of the output block, as the
    rectangles the body loads and stores through. -/
abbrev wholeChunk : Rect S1x512x4096 := Rect.unit (s := S1x512x4096) ![0, 0, 0] S1x512x4096.size inb_S1x512x4096_S1x512x4096_0_0_0
abbrev wholeEmb : Rect S4096x64 := Rect.unit (s := S4096x64) ![0, 0] S4096x64.size inb_S4096x64_S4096x64_0_0
abbrev rowsLo : Rect S1x1024x64 := Rect.unit (s := S1x1024x64) ![0, 0, 0] S1x512x64.size inb_S1x1024x64_S1x512x64_0_0_0
abbrev rowsHi : Rect S1x1024x64 := Rect.unit (s := S1x1024x64) ![0, 512, 0] S1x512x64.size inb_S1x1024x64_S1x512x64_0_512_0

/-- The output block after the body, from the two staged chunks `a0`, `a1` and the staged embeddings `e`: the upper
    store (rows 512–1023, the second chunk's product) over the lower one (rows 0–511, the first chunk's). -/
def twoProducts (a0 a1 : Vec F S1x512x4096 .f32) (e : Vec F S4096x64 .f32) : Vec F S1x1024x64 .f32 :=
  View.canon [⟨rowsHi, k0_pay2 (View.ld a1 wholeChunk) (View.ld e wholeEmb)⟩, ⟨rowsLo, k0_pay1 (View.ld a0 wholeChunk) (View.ld e wholeEmb)⟩]

/-- The two half-height stores fill the 1024-row block. -/
theorem halves_fill (p q : Vec F S1x512x64 .f32) (y : S1x1024x64.Idx) :
    ∃ pc ∈ ([⟨rowsHi, p⟩, ⟨rowsLo, q⟩] : List (View.Piece (Elt F) S1x1024x64 .f32)), y ∈ pc.1.set :=
  View.cover_of_tiled [⟨rowsHi, p⟩, ⟨rowsLo, q⟩] S1x512x64.size (by rfl) y

/-! ## The body's triple -/

set_option maxHeartbeats 1000000 in
/-- Holding the two chunk buffers at `a0`, `a1`, the embedding buffer at `e` and the output buffer at anything, the
    body runs to the end holding the inputs as they were and the output at `twoProducts a0 a1 e`. (It also loads
    each output half before storing it; those values are not used.) -/
theorem body_triple (c : Dev nD) (E : Set ℕ) (i : grid0.Coords)
    (arg1 : Memref sig .tc .vmem S1x512x4096 .f32) (harg1 : arg1.IsWhole) (arg2 : Memref sig .tc .vmem S1x512x4096 .f32) (harg2 : arg2.IsWhole)
    (arg3 : Memref sig .tc .vmem S4096x64 .f32) (harg3 : arg3.IsWhole) (arg4 : Memref sig .tc .vmem S1x1024x64 .f32) (harg4 : arg4.IsWhole)
    (a0 a1 : Vec F S1x512x4096 .f32) (e : Vec F S4096x64 .f32) (K : PUnit → sProp 𝕄) :
    iprop(owns (c : Thread nD τ) arg1 fullShare a0 ∗ owns (c : Thread nD τ) arg2 fullShare a1 ∗ owns (c : Thread nD τ) arg3 fullShare e
        ∗ (∃ d, owns (c : Thread nD τ) arg4 fullShare d)
        ∗ (iprop(owns (c : Thread nD τ) arg1 fullShare a0 ∗ owns (c : Thread nD τ) arg2 fullShare a1 ∗ owns (c : Thread nD τ) arg3 fullShare e
            ∗ owns (c : Thread nD τ) arg4 fullShare (twoProducts a0 a1 e)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f1, %hf1, H1⟩, ⟨%f2, %hf2, H2⟩, ⟨%f3, %hf3, H3⟩, ⟨%d, %f4, -, H4⟩, Hk⟩
  subst hf1; subst hf2; subst hf3
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap
  · iexact H4
  ipureintro
  exact View.read_writes_eq_canon _ _ _ (halves_fill _ _)

end Cert.KernelIdeal.Hand

end
-- ==== Proof.KI.Data.lean ====
/-
  The proof data of the one kernel region, for any float values: what each window's array holds when the region
  is entered, what each staging buffer holds after the body at each grid point, and the share of each array each
  window works with.

  The adjacency (re-laid as 8 × 512 × 4096) is read through TWO windows, the even chunk `2t` and the odd chunk
  `2t+1`; the core's hold on that one array is dealt between them, the left half of the full share to the even
  window and the right half to the odd one. The embeddings are one whole block, the same at every point. The output
  block at point `t` is the two chunk products one over the other.

  Then the body obligation at every grid point: each input buffer holds its block, fetched at that point or kept
  from an earlier one, so the body's triple applies.
-/
import proofs.«161664_g85925115724063_cont_9to1c4b_375_27_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The region's proof data on core `c`. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => twoProducts (blockAt m c 0 t) (blockAt m c 1 t) (blockAt m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem entry_eq (c : Dev nD) (w : Fin cfg0.W) : (regionData m 0 c).A w = atEntry m c (Pipeline.arrRef spec0 w) := by
  dsimp only [regionData]

theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) :
    (regionData m 0 c).after 3 t = twoProducts (blockAt m c 0 t) (blockAt m c 1 t) (blockAt m c 2 t) := by dsimp only [regionData]

/-- An input window's buffer holds its block at every point: a body that leaves the block in place finds, at a point
    that does not fetch, the block of the point before, whose index is the same. -/
theorem found0 (c : Dev nD) (t : Fin cfg0.N) (d) : (regionData m 0 c).before 0 t d = blockAt m c 0 t :=
  ((regionData m 0 c).before_in_eq_fetched 0 rfl (fun _ => rfl) (fun _ _ _ => rfl)
    (fun t => by rw [left0]; unfold Dat.blockOf blockAt; rw [entry_eq]; try rfl) t d).trans
    (by unfold Dat.fetched Dat.blockOf blockAt; rw [entry_eq]; try rfl)
theorem found1 (c : Dev nD) (t : Fin cfg0.N) (d) : (regionData m 0 c).before 1 t d = blockAt m c 1 t :=
  ((regionData m 0 c).before_in_eq_fetched 1 rfl (fun _ => rfl) (fun _ _ _ => rfl)
    (fun t => by rw [left1]; unfold Dat.blockOf blockAt; rw [entry_eq]; try rfl) t d).trans
    (by unfold Dat.fetched Dat.blockOf blockAt; rw [entry_eq]; try rfl)
theorem found2 (c : Dev nD) (t : Fin cfg0.N) (d) : (regionData m 0 c).before 2 t d = blockAt m c 2 t :=
  ((regionData m 0 c).before_in_eq_fetched 2 rfl (fun _ => rfl) (fun _ _ _ => rfl)
    (fun t => by rw [left2]; unfold Dat.blockOf blockAt; rw [entry_eq]; try rfl) t d).trans
    (by unfold Dat.fetched Dat.blockOf blockAt; rw [entry_eq]; try rfl)

/-- The body obligation at every grid point. -/
theorem body_obligation (c : Dev nD) : BodyObligation (regionData (F := F) m 0 c) (defs₀ (F := F)) Variants.none () Set.univ := fun t => by
  rw [bigSep_W0, bigSep_W0]
  show iprop((regionData m 0 c).Φ t.castSucc ∗ (regionData m 0 c).owesAt () t.castSucc
      ∗ (∃ d, owns (c : Thread nD τ) (st0_0 t) fullShare ((regionData m 0 c).before 0 t d))
      ∗ (∃ d, owns (c : Thread nD τ) (st0_1 t) fullShare ((regionData m 0 c).before 1 t d))
      ∗ (∃ d, owns (c : Thread nD τ) (st0_2 t) fullShare ((regionData m 0 c).before 2 t d))
      ∗ (∃ d, owns (c : Thread nD τ) (st0_3 t) fullShare ((regionData m 0 c).before 3 t d)))
    ⊢ wp frame (wpE (defs₀ (F := F)) Variants.none c none) Set.univ (bodyAt0 t) (fun _ =>
      iprop((regionData m 0 c).Φ t.succ ∗ (regionData m 0 c).owesAt () t.succ
        ∗ owns (c : Thread nD τ) (st0_0 t) fullShare ((regionData m 0 c).after 0 t)
        ∗ owns (c : Thread nD τ) (st0_1 t) fullShare ((regionData m 0 c).after 1 t)
        ∗ owns (c : Thread nD τ) (st0_2 t) fullShare ((regionData m 0 c).after 2 t)
        ∗ owns (c : Thread nD τ) (st0_3 t) fullShare ((regionData m 0 c).after 3 t)))
  simp only [found0, found1, found2]
  rw [left0, left1, left2, left3,
    show (regionData m 0 c).Φ t.succ = (regionData m 0 c).Φ t.castSucc from rfl,
    show (regionData m 0 c).owesAt () t.succ = (regionData m 0 c).owesAt () t.castSucc from rfl]
  iintro ⟨HΦ, Ho, ⟨%d0, H0⟩, ⟨%d1, H1⟩, ⟨%d2, H2⟩, ⟨%d3, H3⟩⟩
  unfold bodyAt0
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## What the program ends with -/

/-- Core `c`'s buffers when the region is left: as it was entered, but for the kernel's result array
    [4, 1024, 64], which holds what the four write-backs made of it. -/
def exitVal (c : Dev nD) : Valuation τ sig (Elt F) :=
  Function.update (entryVal m c) (Proc.devRef .tc main_v1) ((regionData m 0 c).arrAt 3 cfg0.N)

/-- The program's result [4096, 64]: the last host line, which re-lays the kernel's result array, applied to the
    buffers as the region left them. -/
def result (c : Dev nD) : Buf (Elt F) ((c : Thread nD τ).loc main_v2) :=
  StableHlo.after hostOps1 (exitVal m c) (Proc.devRef .tc main_v2)

end Cert.KernelIdeal.Hand

end
-- ==== Proof.KI.Plumbing.lean ====
/-
  The separation-logic bookkeeping around the region, for any float values.

  At entry the core holds each of the three distinct buffers behind the four windows whole, at the full share. The
  adjacency buffer serves two windows, so its full share is cut in two, the left half for the even-chunk window and
  the right half for the odd-chunk one (`deal_arrays`).

  At exit the arrays come back at their final contents; the line after the region re-lays the kernel's result
  array [4, 1024, 64] as the program's result [4096, 64], reading the one and writing the other, and everything
  else stays as it was (`relay_result`).
-/
import proofs.«161664_g85925115724063_cont_9to1c4b_375_27_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two buffers the region passes by, after the last host line: the adjacency argument as launched-and-entered,
    the program's result at `result`. -/
def leftOver (c : Dev nD) : sProp 𝕄 :=
  iprop((((c : Thread nD τ).loc main_arg0) ↦{fullShare} atEntry m c main_arg0) ∗ (((c : Thread nD τ).loc main_v2) ↦{fullShare} result m c))

/-- The four windows stand on three distinct buffers: the re-laid adjacency (twice), the embeddings, the result array. -/
theorem arrRefs_eq : Finset.univ.image (Pipeline.arrRef spec0) = [main_v0, main_arg1, main_v1].toFinset := by decide

/-- The share each window's array is held at: the two halves of the full share for the adjacency's two windows, the
    full share for the embeddings (an input on its own buffer) and for the result array (an output). -/
theorem share0 (c : Dev nD) : (regionData m 0 c).share 0 = fullShare.left := rfl
theorem share1 (c : Dev nD) : (regionData m 0 c).share 1 = fullShare.right := rfl
theorem share2 (c : Dev nD) : (regionData m 0 c).share 2 = fullShare := rfl
theorem share3 (c : Dev nD) : (regionData m 0 c).share 3 = fullShare := rfl

/-- ENTRY: the three distinct buffers behind the windows, whole at the full share at the entry contents, are the
    proof data's arrays at entry — the adjacency buffer's share cut in two for its two windows. -/
theorem deal_arrays (c : Dev nD) :
    (Pipeline.arrBufs (Ix := Unit) (Name := ℕ) (U := UR sig nD τ) (Lvl := ℕ) spec0 c (atEntry m c) : sProp 𝕄)
      ⊢ (regionData m 0 c).arrays ((regionData m 0 c).arrAt · 0) := by
  unfold Pipeline.arrBufs Dat.arrays
  rw [bigSep_eq_bigSepL_of_eq [main_v0, main_arg1, main_v1] arrRefs_eq (by decide), bigSep_W0]
  simp only [bigSepL_cons_cons, bigSepL_singleton, View.set_whole]
  rw [share0, share1, share2, share3]
  show iprop((c.tc.loc main_v0 ↦{fullShare} atEntry m c main_v0) ∗ (c.tc.loc main_arg1 ↦{fullShare} atEntry m c main_arg1)
        ∗ (c.tc.loc main_v1 ↦{fullShare} atEntry m c main_v1))
      ⊢ iprop((c.tc.loc main_v0 ↦{fullShare.left} atEntry m c main_v0) ∗ (c.tc.loc main_v0 ↦{fullShare.right} atEntry m c main_v0)
        ∗ (c.tc.loc main_arg1 ↦{fullShare} atEntry m c main_arg1) ∗ (c.tc.loc main_v1 ↦{fullShare} atEntry m c main_v1))
  iintro ⟨H0, H1, H2⟩
  -- the adjacency buffer's full share, cut in its two halves
  ihave H0 := (pointsTo_share (PosShare.mem_left_op_right fullShare)).1 $$ H0
  icases H0 with ⟨Ha, Hb⟩
  isplitl [Ha]; · iexact Ha
  isplitl [Hb]; · iexact Hb
  isplitl [H1]; · iexact H1
  iexact H2

/-- The two buffers the last host line touches: it reads the kernel's result array and writes the program's result. -/
abbrev lastRefs : Finset (DevRef τ sig) := {Proc.devRef .tc main_v1, Proc.devRef .tc main_v2}

/-- They are two buffers. -/
theorem v1_ne_v2 : (Proc.devRef .tc main_v1 : DevRef τ sig) ∉ ({Proc.devRef .tc main_v2} : Finset (DevRef τ sig)) := by decide

/-- At the region's exit the result array holds what the write-backs made of it. -/
theorem exit_v1 (c : Dev nD) : exitVal m c (Proc.devRef .tc main_v1) = (regionData m 0 c).arrAt 3 cfg0.N := by
  unfold exitVal; exact Function.update_self ..

/-- And the program's result buffer still what it held at entry. -/
theorem exit_v2 (c : Dev nD) : exitVal m c (Proc.devRef .tc main_v2) = atEntry m c main_v2 := by
  unfold exitVal; exact Function.update_of_ne (by decide) ..

/-- The last line does not write the result array. -/
theorem after_v1 (c : Dev nD) : StableHlo.after hostOps1 (exitVal m c) (Proc.devRef .tc main_v1) = (regionData m 0 c).arrAt 3 cfg0.N := by
  rw [StableHlo.after_of_forall_not_mem hostOps1 _ (fun op hop => ?_), exit_v1]
  rw [List.mem_singleton] at hop; subst hop
  exact v1_ne_v2

/-- The last line's two buffers held at the exit contents: window 3's array at its final contents, and the
    program's result buffer at its entry contents. -/
theorem held_exit (c : Dev nD) :
    (StableHlo.held (c.tc : Thread nD τ) lastRefs (exitVal m c) : sProp 𝕄)
      = iprop((View.loc c.tc (View.whole main_v1) ↦{fullShare} (regionData m 0 c).arrAt 3 cfg0.N) ∗ (c.tc.loc main_v2 ↦{fullShare} atEntry m c main_v2)) := by
  unfold StableHlo.held lastRefs
  rw [bigSep_insert v1_ne_v2, bigSep_singleton, exit_v1, exit_v2]
  rfl

/-- The same held after the line: the array as it was, the program's result buffer at `result`. -/
theorem held_result (c : Dev nD) :
    (StableHlo.held (c.tc : Thread nD τ) lastRefs (StableHlo.after hostOps1 (exitVal m c)) : sProp 𝕄)
      = iprop((View.loc c.tc (View.whole main_v1) ↦{fullShare} (regionData m 0 c).arrAt 3 cfg0.N) ∗ (c.tc.loc main_v2 ↦{fullShare} result m c)) := by
  unfold StableHlo.held lastRefs
  rw [bigSep_insert v1_ne_v2, bigSep_singleton, after_v1]
  rfl

/-- EXIT: from the arrays at their final contents and the two bypassing buffers at their entry contents, the last
    host line runs, and hands back the arrays as they were and the bypassing buffers at `leftOver`. -/
theorem relay_result (𝒱₀ : Variants) (c : Dev nD) (Q' : PUnit → sProp 𝕄) :
    iprop((iprop((regionData m 0 c).arrays ((regionData m 0 c).arrAt · cfg0.N) ∗ leftOver m c) -∗ Q' ⟨⟩)
        ∗ boundary (c.tc : Thread nD τ) ∗ (regionData m 0 c).arrays ((regionData m 0 c).arrAt · cfg0.N)
        ∗ Pipeline.unscopedRest (Ix := Unit) (Name := ℕ) (U := UR sig nD τ) (Lvl := ℕ) spec0 c (atEntry m c))
      ⊢ wp frame (wpE (defs (F := F)) (Variants.lift 𝒱₀) (c.tc : Thread nD τ) none) Set.univ
          (Pipeline.chain [StableHlo.seq hostOps1]) Q' := by
  rw [unscopedRest0_eq]
  unfold Dat.arrays leftOver defs
  rw [bigSep_W0]
  simp only [View.set_whole]
  rw [share0, share1, share2, share3]
  -- the last line run on its two buffers, from the exit contents: the continuation is reached holding them at the
  -- contents after the line
  have key := Pipeline.wp_seqs_then (Ix := Unit) (Name := ℕ) (U := UR sig nD τ) (Lvl := ℕ) (pcfgs (F := F)) defs₀ 𝒱₀ c lastRefs [] (K := Q')
    [hostOps1] (fun ops ho op h => by
      rw [List.mem_singleton] at ho; subst ho; rw [List.mem_singleton] at h; subst h; exact Finset.Subset.refl _)
    (fun ops ho op h => by
      rw [List.mem_singleton] at ho; subst ho; rw [List.mem_singleton] at h; subst h; rfl) (exitVal m c)
  simp only [List.map_cons, List.map_nil, List.cons_append, List.nil_append, List.flatten_cons, List.flatten_nil, List.append_nil] at key
  rw [held_exit, held_result, Pipeline.chain_nil, wp_pure] at key
  iintro ⟨Hk, Hb, ⟨A0, A1, A2, A3⟩, R0, R2⟩
  -- the result array comes out of the arrays, the program's result out of the bypassing buffers
  iapply key $$ [Hb A3 R2]
  · isplitl [Hb]; · iexact Hb
    isplitl [A3]; · iexact A3
    iexact R2
  iintro ⟨Hb, A3, R2⟩
  imodintro
  iapply Hk
  -- the result array goes back among the arrays, unchanged; the program's result joins the adjacency argument
  isplitl [A0 A1 A2 A3]
  · isplitl [A0]; · iexact A0
    isplitl [A1]; · iexact A1
    isplitl [A2]; · iexact A2
    iexact A3
  isplitl [R0]; · iexact R0
  iexact R2

end Cert.KernelIdeal.Hand

end
-- ==== Proof.KI.Launch.lean ====
/-
  The run of the whole program, for any float values: from any memory with zero semaphore counters every weakly
  fair execution of @main terminates, nothing faulting; the program's result [4096, 64] ends at `result` (the
  re-laying of what the four write-backs made of the kernel's result array), and the two arguments end as
  launched — the embeddings are an input window's array, which nothing writes, and the adjacency passes the region
  by and no host line writes it.
-/
import proofs.«161664_g85925115724063_cont_9to1c4b_375_27_alg».proof.Proof.KI.Plumbing

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line before the region writes the embeddings: the region finds them as launched. -/
theorem entry_emb (c : Dev nD) : atEntry m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-- Nor the adjacency argument. -/
theorem entry_adj (c : Dev nD) : atEntry m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results

/-- The region's invariant is the scoped buffers no window stages: it is entered with them, -/
theorem inv_in (c : Dev nD) (P : sProp 𝕄) :
    iprop(emp ∗ P ∗ Pipeline.scopedRest (Ix := Unit) (Name := ℕ) (U := UR sig nD τ) (Lvl := ℕ) (Val := Elt F) spec0 c) ⊢ (regionData m 0 c).Φ 0 := by
  show _ ⊢ Pipeline.scopedRest (Ix := Unit) (Name := ℕ) (U := UR sig nD τ) (Lvl := ℕ) (Val := Elt F) spec0 c
  iintro ⟨-, -, H⟩; iexact H

/-- and gives them back. -/
theorem inv_out (c : Dev nD) :
    (regionData m 0 c).Φ (Fin.last cfg0.N) ⊢ iprop(emp ∗ Pipeline.scopedRest (Ix := Unit) (Name := ℕ) (U := UR sig nD τ) (Lvl := ℕ) (Val := Elt F) spec0 c) := by
  show Pipeline.scopedRest (Ix := Unit) (Name := ℕ) (U := UR sig nD τ) (Lvl := ℕ) (Val := Elt F) spec0 c ⊢ _
  iintro H; isplitr
  · iempintro
  · iexact H

theorem run_main : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun p => (cfgs p).toPCfg (Val := Elt F)) (fun p => (cfgs p).toPCfg_adm) (regionData m) ()
    cellOf_inj (0 : Fin 1) winFacts₀0 (Pipeline.PreFacts.none _) emb₁ defs₀ Variants.none m ρ main
    (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := main_around m Variants.none)
    (hsplit := deal_arrays m) (hpf := fun _ k => k.elim0)
    (X := fun _ => iprop(emp)) (Y := fun _ => iprop(emp))
    (Z := fun c => Pipeline.unscopedRest (Ix := Unit) (Name := ℕ) (U := UR sig nD τ) (Lvl := ℕ) spec0 c (atEntry m c))
    (Z' := leftOver m)
    (hX := fun c => by
      rw [Pipeline.unscopedRestP_none]
      iintro H; isplitr
      · iempintro
      · iexact H)
    (hin := fun c => inv_in m c _)
    (hout := fun c => inv_out m c)
    (htail := relay_result m Variants.none)
    (QY := fun c s => s.mem ((c.tc : Thread nD τ).loc main_arg0) = atEntry m c main_arg0
      ∧ s.mem ((c.tc : Thread nD τ).loc main_v2) = result m c)
    (hY := fun c s' => by
      unfold leftOver
      iintro ⟨-, ⟨H0, H2⟩, HSI⟩
      icombine HSI H0 gives %h0
      icombine HSI H2 gives %h2
      imodintro
      isplitr
      · ipureintro; exact ⟨Buf.eq_of_forall_mem_univ h0, Buf.eq_of_forall_mem_univ h2⟩
      · iexact HSI)
    (hQ := fun s h c => ⟨(h c).2.2.2, (h c).2.2.1.trans (entry_adj m c),
      ((h c).1 2).trans (((regionData m 0 c).arrAt_in 2 rfl _).trans ((entry_eq m c 2).trans (entry_emb m c)))⟩)

end Cert.KernelIdeal.Hand

end
-- ==== Proof.KI.BlockValue.lean ====
/-
  One output block at the ideal instance, entry by entry: the block the body leaves from two staged adjacency
  chunks a0, a1 [1, 512, 4096] and the staged embeddings e [4096, 64] has, in row j < 512, the sum over k of
  a0 (0, j, k) · e (k, n), and in row j ≥ 512 the sum over k of a1 (0, j − 512, k) · e (k, n): each half is the
  matrix unit's product into a zero accumulator, which at the ideal instance is the plain sum over the contracted
  coordinate, and the unit leading axis is dropped before the product and put back after it.
-/
import proofs.«161664_g85925115724063_cont_9to1c4b_375_27_alg».proof.Proof.KI.Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The product's operand indices, axis by axis

The product contracts the left operand's axis 1 with the right operand's axis 0; the result's row is the left
operand's free axis 0 and its column the right operand's free axis 1. -/

/-- On its free axis the left index is the result's row. -/
theorem prodLhs_axis0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
/-- On its contracted axis the left index is the contraction coordinate. -/
theorem prodLhs_axis1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
/-- On its contracted axis the right index is the contraction coordinate. -/
theorem prodRhs_axis0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
/-- On its free axis the right index is the result's column. -/
theorem prodRhs_axis1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- The [512, 4096] × [4096, 64] product into a zero accumulator, at entry (p, n): the sum over k of A (p, k) · e (k, n). -/
theorem product_apply (A : FVec Ideal S512x4096 .f32) (e : FVec Ideal S4096x64 .f32) (p : Fin 512) (n : Fin 64) :
    matmul (F := Ideal) dot_S512x4096_S4096x64_S512x64_1_0_0_1_n_n none A e (constant (F := Ideal) S512x64 .f32 0x00000000#32) (ix2 p n)
      = ∑ k : Fin 4096, A (ix2 p k) * e (ix2 k n) := by
  refine (Idealize.ShloMosaic.Ideal.matmul_constant_zero_apply _ _ _ _ _).trans ?_
  rw [← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx (ix2 p n) ((ValueIdx.contrEquiv1 dot_S512x4096_S4096x64_S512x64_1_0_0_1_n_n 4096 rfl rfl).symm k) = ix2 p k :=
    funext fun a => Fin.ext (by
      match a with
      | ⟨0, _⟩ => exact prodLhs_axis0 _ _
      | ⟨1, _⟩ => exact (prodLhs_axis1 _ _).trans hk)
  have er : dot_S512x4096_S4096x64_S512x64_1_0_0_1_n_n.rhsIdx (ix2 p n) ((ValueIdx.contrEquiv1 dot_S512x4096_S4096x64_S512x64_1_0_0_1_n_n 4096 rfl rfl).symm k) = ix2 k n :=
    funext fun a => Fin.ext (by
      match a with
      | ⟨0, _⟩ => exact (prodRhs_axis0 _ _).trans hk
      | ⟨1, _⟩ => exact prodRhs_axis1 _ _)
  rw [el, er]

/-! ## One half: the unit leading axis dropped, the product, the unit leading axis put back -/

/-- (p, k) with a leading 0 put in front is (0, p, k). -/
theorem dropLead_idx (p : Fin 512) (k : Fin 4096) :
    (Fin.cons (⟨0, Nat.one_pos⟩ : Fin 1) (ix2 p k) : S1x512x4096.Idx) = ix3 (0 : Fin 1) p k := by
  funext a
  match a with
  | ⟨0, _⟩ => rfl
  | ⟨1, _⟩ => rfl
  | ⟨2, _⟩ => rfl

/-- (0, p, n) without its leading coordinate is (p, n). -/
theorem addLead_idx (p : Fin 512) (n : Fin 64) :
    (fun a : Fin 2 => ix3 (0 : Fin 1) p n a.succ) = ix2 p n := by
  funext a
  match a with
  | ⟨0, _⟩ => rfl
  | ⟨1, _⟩ => rfl

/-- One half's value at (0, p, n): the sum over k of a (0, p, k) · e (k, n). -/
theorem half_product (a : Vec Ideal S1x512x4096 .f32) (e : Vec Ideal S4096x64 .f32) (p : Fin 512) (n : Fin 64) :
    k0_pay1 (F := Ideal) a e (ix3 (0 : Fin 1) p n) = ∑ k : Fin 4096, a (ix3 (0 : Fin 1) p k) * e (ix2 k n) := by
  unfold k0_pay1
  refine (shapeCast_addUnit_apply ![512, 64] _ _ _).trans ?_
  rw [addLead_idx p n]
  refine (product_apply _ e p n).trans ?_
  refine Finset.sum_congr rfl fun k _ => ?_
  refine congrArg (· * e (ix2 k n)) ?_
  exact (shapeCast_dropUnit_apply ![512, 4096] a _ (ix2 p k)).trans (congrArg a (dropLead_idx p k))

/-! ## The loads read the whole staged blocks -/

theorem wholeChunk_ld (a : Vec Ideal S1x512x4096 .f32) : View.ld a wholeChunk = a :=
  View.ld_unit_zero (funext fun c => by
    match c with
    | ⟨0, _⟩ => rfl
    | ⟨1, _⟩ => rfl
    | ⟨2, _⟩ => rfl) inb_S1x512x4096_S1x512x4096_0_0_0 a

theorem wholeEmb_ld (e : Vec Ideal S4096x64 .f32) : View.ld e wholeEmb = e :=
  View.ld_unit_zero (funext fun c => by
    match c with
    | ⟨0, _⟩ => rfl
    | ⟨1, _⟩ => rfl) inb_S4096x64_S4096x64_0_0 e

/-! ## The two row halves of the output block -/

/-- The upper half places (0, q, n) at (0, 512 + q, n). -/
theorem rowsHi_emb (q : Fin 512) (n : Fin 64) (j : Fin 1024) (hj : j.val = 512 + q.val) :
    rowsHi.emb (ix3 (0 : Fin 1) q n) = ix3 (0 : Fin 1) j n := by
  funext c
  match c with
  | ⟨0, _⟩ => exact Fin.ext (by show 0 + 1 * 0 = 0; rfl)
  | ⟨1, _⟩ => exact Fin.ext (by show 512 + 1 * q.val = j.val; omega)
  | ⟨2, _⟩ => exact Fin.ext (by show 0 + 1 * n.val = n.val; omega)

/-- The lower half places (0, q, n) at (0, q, n). -/
theorem rowsLo_emb (q : Fin 512) (n : Fin 64) (j : Fin 1024) (hj : j.val = q.val) :
    rowsLo.emb (ix3 (0 : Fin 1) q n) = ix3 (0 : Fin 1) j n := by
  funext c
  match c with
  | ⟨0, _⟩ => exact Fin.ext (by show 0 + 1 * 0 = 0; rfl)
  | ⟨1, _⟩ => exact Fin.ext (by show 0 + 1 * q.val = j.val; omega)
  | ⟨2, _⟩ => exact Fin.ext (by show 0 + 1 * n.val = n.val; omega)

/-- A row below 512 is not in the upper half, whose rows start at 512. -/
theorem lowRow_not_mem_rowsHi (j : Fin 1024) (n : Fin 64) (h : j.val < 512) :
    ix3 (0 : Fin 1) j n ∉ rowsHi.set := by
  intro hm
  have h1 := (Rect.mem_set_unit.mp hm 1).1
  have h2 : 512 ≤ j.val := h1
  omega

/-- In a row below 512 the block holds the lower store's value. -/
theorem canon_lowRow (w v : Vec Ideal S1x512x64 .f32) (j : Fin 1024) (n : Fin 64) (h : j.val < 512) :
    View.canon ([⟨rowsHi, w⟩, ⟨rowsLo, v⟩] : List (View.Piece (Elt Ideal) S1x1024x64 .f32)) (ix3 (0 : Fin 1) j n)
      = v (ix3 (0 : Fin 1) (⟨j.val, h⟩ : Fin 512) n) := by
  refine (View.canon_cons_of_not_mem (⟨rowsHi, w⟩ : View.Piece (Elt Ideal) S1x1024x64 .f32) [⟨rowsLo, v⟩]
    (lowRow_not_mem_rowsHi j n h)).trans ?_
  rw [← rowsLo_emb (⟨j.val, h⟩ : Fin 512) n j rfl]
  exact View.canon_cons_emb rowsLo v [] _

/-- In a row from 512 on the block holds the upper store's value, 512 rows up. -/
theorem canon_highRow (w v : Vec Ideal S1x512x64 .f32) (j : Fin 1024) (n : Fin 64) (h : ¬ j.val < 512) :
    View.canon ([⟨rowsHi, w⟩, ⟨rowsLo, v⟩] : List (View.Piece (Elt Ideal) S1x1024x64 .f32)) (ix3 (0 : Fin 1) j n)
      = w (ix3 (0 : Fin 1) (⟨j.val - 512, by omega⟩ : Fin 512) n) := by
  rw [← rowsHi_emb (⟨j.val - 512, by omega⟩ : Fin 512) n j (by show j.val = 512 + (j.val - 512); omega)]
  exact View.canon_cons_emb rowsHi w [⟨rowsLo, v⟩] _

/-! ## The block, entry by entry -/

theorem twoProducts_apply (a0 a1 : Vec Ideal S1x512x4096 .f32) (e : Vec Ideal S4096x64 .f32) (j : Fin 1024) (n : Fin 64) :
    twoProducts (F := Ideal) a0 a1 e (ix3 (0 : Fin 1) j n)
      = if h : j.val < 512 then ∑ k : Fin 4096, a0 (ix3 (0 : Fin 1) (⟨j.val, h⟩ : Fin 512) k) * e (ix2 k n)
        else ∑ k : Fin 4096, a1 (ix3 (0 : Fin 1) (⟨j.val - 512, by omega⟩ : Fin 512) k) * e (ix2 k n) := by
  unfold twoProducts
  rw [wholeChunk_ld, wholeChunk_ld, wholeEmb_ld]
  by_cases h : j.val < 512
  · rw [dif_pos h]
    exact (canon_lowRow _ _ j n h).trans (half_product a0 e _ n)
  · rw [dif_neg h]
    exact (canon_highRow _ _ j n h).trans (half_product a1 e _ n)

end Cert.KernelIdeal.Hand

end
-- ==== Proof.KI.Relay.lean ====
/-
  The two host re-layings read at an index, for any float values.

  Before the region the adjacency [4096, 4096] is re-laid as [8, 512, 4096] in row-major order: chunk q, row p is
  row 512 q + p. After the region the kernel's result array [4, 1024, 64] is re-laid as [4096, 64]: row r is block
  r / 1024, row r % 1024.
-/
import proofs.«161664_g85925115724063_cont_9to1c4b_375_27_alg».proof.Proof.KI.Data
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The region finds the adjacency re-laid in chunks. -/
theorem entry_chunks (c : Dev nD) :
    (atEntry m c main_v0 : S8x512x4096.Idx → Elt F .f32)
      = shapeCast S8x512x4096 (m ((c : Thread nD τ).loc main_arg0)) shapeCasts_S4096x4096_S8x512x4096 := by
  show StableHlo.after (List.flatten [hostOps0]) (fun b => m (c, b)) (Proc.devRef .tc main_v0) = _
  simp only [hostOps0, List.flatten_cons, List.flatten_nil, List.append_nil]
  after_results
  rfl

/-- Chunk q, row p of the re-laid adjacency is row 512 q + p. -/
theorem chunk_apply {α : Type} (X : S4096x4096.Idx → α) (q : Fin 8) (p : Fin 512) (k : Fin 4096) :
    shapeCast S8x512x4096 X shapeCasts_S4096x4096_S8x512x4096 (ix3 q p k)
      = X (ix2 (⟨512 * q.val + p.val, by omega⟩ : Fin 4096) k) :=
  shapeCast_apply X _ _ _ (by
    rw [Shape.rowMajor_val_two, Shape.rowMajor_val_three]
    show (512 * q.val + p.val) * 4096 + k.val = (q.val * 512 + p.val) * 4096 + k.val
    omega)

/-- The program's result is the re-laying of what the write-backs made of the kernel's result array. -/
theorem result_eq (c : Dev nD) :
    result m c = shapeCast S4096x64 ((regionData m 0 c).arrAt 3 cfg0.N) shapeCasts_S4x1024x64_S4096x64 := by
  unfold result
  simp only [hostOps1]
  after_results
  have hx : exitVal m c (Proc.devRef .tc main_v1) = (regionData m 0 c).arrAt 3 cfg0.N := by
    unfold exitVal; exact Function.update_self _ _ _
  rw [hx]
  rfl

/-- Row r of the re-laid result is block r / 1024, row r % 1024. -/
theorem relaid_apply {α : Type} (Y : S4x1024x64.Idx → α) (r : Fin 4096) (n : Fin 64) :
    shapeCast S4096x64 Y shapeCasts_S4x1024x64_S4096x64 (ix2 r n)
      = Y (ix3 (⟨r.val / 1024, by omega⟩ : Fin 4) (⟨r.val % 1024, Nat.mod_lt _ (by decide)⟩ : Fin 1024) n) :=
  shapeCast_apply Y _ _ _ (by
    rw [Shape.rowMajor_val_three, Shape.rowMajor_val_two]
    show (r.val / 1024 * 1024 + r.val % 1024) * 64 + n.val = r.val * 64 + n.val
    have := Nat.div_add_mod' r.val 1024
    omega)

end Cert.KernelIdeal.Hand

end
-- ==== Proof.Spec.lean ====
/-
  What both programs compute, stated once over the extended reals: the product of the adjacency matrix
  [4096, 4096] with the embedding matrix [4096, 64] — entry (r, n) is the sum over k of adj (r, k) · emb (k, n).
-/
import Idealize.ShloMosaic.PureOps.Ideal
import Idealize.ShloMosaic.Lib.ValueIdx

noncomputable section

namespace Cert.Spec

open Idealize.ShloMosaic

abbrev SAdj : Shape := ⟨2, ![4096, 4096]⟩
abbrev SEmb : Shape := ⟨2, ![4096, 64]⟩

/-- The matrix product adj · emb, entry by entry. -/
def product (adj : SAdj.Idx → EReal) (emb : SEmb.Idx → EReal) : SEmb.Idx → EReal := fun i =>
  ∑ k : Fin 4096, adj (ValueIdx.ix2 (⟨(i 0).val, (i 0).isLt⟩ : Fin 4096) k) * emb (ValueIdx.ix2 k (⟨(i 1).val, (i 1).isLt⟩ : Fin 64))

end Cert.Spec

end
-- ==== Proof.KI.Value.lean ====
/-
  The kernel's value at the ideal instance: the program's result is the matrix product of its two arguments.

  Grid point t writes block t of the [4, 1024, 64] result array; row j of that block is, for j < 512, row j of
  adjacency chunk 2t times the embeddings, and for j ≥ 512, row j − 512 of chunk 2t+1 times the embeddings. Chunk
  q of the re-laid adjacency [8, 512, 4096] is rows 512q … 512q+511 of the adjacency, so row j of block t is row
  1024t + j of the product; the four blocks tile the array, and the last host line re-lays [4, 1024, 64] as
  [4096, 64] in row-major order, which puts row 1024t + j of the product at row 1024t + j.
-/
import proofs.«161664_g85925115724063_cont_9to1c4b_375_27_alg».proof.Proof.KI.Data
import proofs.«161664_g85925115724063_cont_9to1c4b_375_27_alg».proof.Proof.KI.BlockValue
import proofs.«161664_g85925115724063_cont_9to1c4b_375_27_alg».proof.Proof.KI.Relay
import proofs.«161664_g85925115724063_cont_9to1c4b_375_27_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Blocks

variable (m : (ℓ : Loc nD τ sig) → Buf (Elt Ideal) ℓ)

/-- The four index maps at a grid point: the two adjacency windows sit at chunks 2t and 2t + 1, the embeddings at
    their one block, the output at block t. -/
theorem idx_facts : ∀ t : Fin cfg0.N,
    (win0_0.index t (0 : Fin 3) = 2 * t.val ∧ win0_0.index t (1 : Fin 3) = 0 ∧ win0_0.index t (2 : Fin 3) = 0)
    ∧ (win0_1.index t (0 : Fin 3) = 2 * t.val + 1 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

/-! ## Entries of the product -/

/-- Entry (r, n) of the product of an adjacency and an embedding matrix. -/
def dotAt (adj : S4096x4096.Idx → EReal) (emb : S4096x64.Idx → EReal) (r : Fin 4096) (n : Fin 64) : EReal :=
  ∑ k : Fin 4096, adj (ix2 r k) * emb (ix2 k n)

/-- It depends on the row and the column only through their values. -/
theorem dotAt_congr (adj : S4096x4096.Idx → EReal) (emb : S4096x64.Idx → EReal) {r r' : Fin 4096} {n n' : Fin 64}
    (hr : r.val = r'.val) (hn : n.val = n'.val) : dotAt adj emb r n = dotAt adj emb r' n' := by
  obtain rfl : r = r' := Fin.ext hr
  obtain rfl : n = n' := Fin.ext hn
  rfl

/-- Block t, row j of the kernel's result array names a row of the product: 1024 t + j is below 4096. -/
theorem row_lt (y : S4x1024x64.Idx) : 1024 * (y 0).val + (y 1).val < 4096 := by
  have h0 : (y 0).val < 4 := (y 0).isLt
  have h1 : (y 1).val < 1024 := (y 1).isLt
  omega

/-- The kernel's result array [4, 1024, 64] as ONE function of the two arguments: entry (t, j, n) is entry
    (1024 t + j, n) of the product. -/
def blockForm (adj : S4096x4096.Idx → EReal) (emb : S4096x64.Idx → EReal) : S4x1024x64.Idx → EReal := fun y =>
  dotAt adj emb ⟨1024 * (y 0).val + (y 1).val, row_lt y⟩ ⟨(y 2).val, (y 2).isLt⟩

/-! ## The input blocks, read where their rectangles say -/

/-- The grid has four points. -/
theorem point_lt (t : Fin cfg0.N) : t.val < 4 :=
  Nat.lt_of_lt_of_eq t.isLt N_0

/-- The even window's block at point t is chunk 2t of the re-laid adjacency. -/
theorem block0_apply (c : Dev nD) (t : Fin cfg0.N) (p : Fin 512) (k : Fin 4096) (q : Fin 8) (hq : q.val = 2 * t.val) :
    blockAt m c 0 t (ix3 (0 : Fin 1) p k) = atEntry m c main_v0 (ix3 q p k) := by
  obtain ⟨⟨h0, h1, h2⟩, -⟩ := idx_facts t
  show atEntry m c main_v0 (((cfg0.win 0).blk t).view.emb (ix3 (0 : Fin 1) p k)) = _
  refine congrArg _ (funext fun a => Fin.ext ?_)
  match a with
  | ⟨0, _⟩ => show win0_0.index t (0 : Fin 3) * 1 + 1 * 0 = q.val; rw [h0, hq]; omega
  | ⟨1, _⟩ => show win0_0.index t (1 : Fin 3) * 512 + 1 * p.val = p.val; rw [h1]; omega
  | ⟨2, _⟩ => show win0_0.index t (2 : Fin 3) * 4096 + 1 * k.val = k.val; rw [h2]; omega

/-- The odd window's block at point t is chunk 2t + 1. -/
theorem block1_apply (c : Dev nD) (t : Fin cfg0.N) (p : Fin 512) (k : Fin 4096) (q : Fin 8) (hq : q.val = 2 * t.val + 1) :
    blockAt m c 1 t (ix3 (0 : Fin 1) p k) = atEntry m c main_v0 (ix3 q p k) := by
  obtain ⟨-, ⟨h0, h1, h2⟩, -⟩ := idx_facts t
  show atEntry m c main_v0 (((cfg0.win 1).blk t).view.emb (ix3 (0 : Fin 1) p k)) = _
  refine congrArg _ (funext fun a => Fin.ext ?_)
  match a with
  | ⟨0, _⟩ => show win0_1.index t (0 : Fin 3) * 1 + 1 * 0 = q.val; rw [h0, hq]; omega
  | ⟨1, _⟩ => show win0_1.index t (1 : Fin 3) * 512 + 1 * p.val = p.val; rw [h1]; omega
  | ⟨2, _⟩ => show win0_1.index t (2 : Fin 3) * 4096 + 1 * k.val = k.val; rw [h2]; omega

/-- The embeddings' window holds the whole array at every point. -/
theorem block2_apply (c : Dev nD) (t : Fin cfg0.N) (k : Fin 4096) (n : Fin 64) :
    blockAt m c 2 t (ix2 k n) = atEntry m c main_arg1 (ix2 k n) := by
  obtain ⟨-, -, ⟨h0, h1⟩, -⟩ := idx_facts t
  show atEntry m c main_arg1 (((cfg0.win 2).blk t).view.emb (ix2 k n)) = _
  refine congrArg _ (funext fun a => Fin.ext ?_)
  match a with
  | ⟨0, _⟩ => show win0_2.index t (0 : Fin 2) * 4096 + 1 * k.val = k.val; rw [h0]; omega
  | ⟨1, _⟩ => show win0_2.index t (1 : Fin 2) * 64 + 1 * n.val = n.val; rw [h1]; omega

/-- No host line before the region writes the embeddings. -/
theorem found_emb (c : Dev nD) : atEntry m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-- Chunk q, row p, column k of what the region finds is entry (512 q + p, k) of the adjacency. -/
theorem chunk_entry (c : Dev nD) (q : Fin 8) (p : Fin 512) (k : Fin 4096) (r : Fin 4096) (hr : r.val = 512 * q.val + p.val) :
    atEntry m c main_v0 (ix3 q p k) = m ((c : Thread nD τ).loc main_arg0) (ix2 r k) := by
  rw [entry_chunks, chunk_apply]
  exact congrArg (fun r' : Fin 4096 => m ((c : Thread nD τ).loc main_arg0) (ix2 r' k)) (Fin.ext hr.symm)

/-! ## One output block, entry by entry -/

/-- Entry (0, j, n) of what the body leaves at point t is entry (1024 t + j, n) of the product: for j < 512 through
    chunk 2t at row j, for j ≥ 512 through chunk 2t + 1 at row j − 512, the same row of the adjacency. -/
theorem out_block_apply (c : Dev nD) (t : Fin cfg0.N) (y : S1x1024x64.Idx) (i : S4x1024x64.Idx)
    (h0 : (i 0).val = t.val) (h1 : (i 1).val = (y 1).val) (h2 : (i 2).val = (y 2).val) :
    twoProducts (blockAt m c 0 t) (blockAt m c 1 t) (blockAt m c 2 t) y
      = blockForm (m ((c : Thread nD τ).loc main_arg0)) (m ((c : Thread nD τ).loc main_arg1)) i := by
  have ht := point_lt t
  obtain ⟨u, j, n, rfl⟩ : ∃ (u : Fin 1) (j : Fin 1024) (n : Fin 64), y = ix3 u j n := ⟨y 0, y 1, y 2, eq_ix3 y⟩
  obtain rfl : u = 0 := Subsingleton.elim _ _
  have h1' : (i 1).val = j.val := h1
  obtain rfl : n = ⟨(i 2).val, (i 2).isLt⟩ := Fin.ext h2.symm
  rw [twoProducts_apply]
  unfold blockForm dotAt
  split
  · rename_i hj
    refine Finset.sum_congr rfl fun k _ => ?_
    rw [block0_apply m c t _ k ⟨2 * t.val, by omega⟩ rfl, block2_apply, found_emb,
      chunk_entry m c _ _ k ⟨1024 * (i 0).val + (i 1).val, row_lt i⟩ (by show 1024 * (i 0).val + (i 1).val = 512 * (2 * t.val) + j.val; omega)]
  · rename_i hj
    refine Finset.sum_congr rfl fun k _ => ?_
    rw [block1_apply m c t _ k ⟨2 * t.val + 1, by omega⟩ rfl, block2_apply, found_emb,
      chunk_entry m c _ _ k ⟨1024 * (i 0).val + (i 1).val, row_lt i⟩ (by show 1024 * (i 0).val + (i 1).val = 512 * (2 * t.val + 1) + (j.val - 512); omega)]

/-! ## The array after the run -/

/-- What point t writes back is block t of the one function: the output window is not cut, and its block t sits at
    rows 0 … 1023 of plane t. -/
theorem flushed_eq (c : Dev nD) (t : Fin cfg0.N) :
    (regionData m 0 c).flushed 3 t
      = ((cfg0.win 3).blk t).view.read (Elt Ideal)
          (blockForm (m ((c : Thread nD τ).loc main_arg0)) (m ((c : Thread nD τ).loc main_arg1))) := by
  obtain ⟨-, -, -, ⟨h0, h1, h2⟩⟩ := idx_facts t
  funext y
  show (regionData m 0 c).after 3 t y = blockForm _ _ (((cfg0.win 3).blk t).view.emb y)
  rw [left3]
  refine out_block_apply m c t y _ ?_ ?_ ?_
  · show win0_3.index t (0 : Fin 3) * 1 + 1 * (y 0).val = t.val
    have hy : (y 0).val < 1 := (y 0).isLt
    rw [h0]; omega
  · show win0_3.index t (1 : Fin 3) * 1024 + 1 * (y 1).val = (y 1).val
    rw [h1]; omega
  · show win0_3.index t (2 : Fin 3) * 64 + 1 * (y 2).val = (y 2).val
    rw [h2]; omega

/-- The four output blocks tile the array: index (t, j, n) lies in the block point t writes back. -/
theorem blocks_cover (i : S4x1024x64.Idx) :
    ∃ t : Fin cfg0.N, (cfg0.win 3).flush t = true ∧ i ∈ ((cfg0.win 3).blk t).view.set := by
  have hi0 : (i 0).val < 4 := (i 0).isLt
  have hi1 : (i 1).val < 1024 := (i 1).isLt
  have hi2 : (i 2).val < 64 := (i 2).isLt
  obtain ⟨t, ht⟩ : ∃ t : Fin cfg0.N, t.val = (i 0).val := ⟨⟨(i 0).val, Nat.lt_of_lt_of_eq hi0 N_0.symm⟩, rfl⟩
  obtain ⟨-, -, -, ⟨h0, h1, h2⟩⟩ := idx_facts t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [h0]; omega
  | ⟨1, _⟩ =>
    show win0_3.index t (1 : Fin 3) * 1024 ≤ (i 1).val ∧ (i 1).val < win0_3.index t (1 : Fin 3) * 1024 + 1024
    rw [h1]; omega
  | ⟨2, _⟩ =>
    show win0_3.index t (2 : Fin 3) * 64 ≤ (i 2).val ∧ (i 2).val < win0_3.index t (2 : Fin 3) * 64 + 64
    rw [h2]; omega

/-- So the kernel's result array ends holding the one function. -/
theorem final_array (c : Dev nD) :
    (regionData m 0 c).arrAt 3 cfg0.N
      = blockForm (m ((c : Thread nD τ).loc main_arg0)) (m ((c : Thread nD τ).loc main_arg1)) :=
  (regionData m 0 c).arrAt_eq_of_cover 3 _ (fun t _ => flushed_eq m c t) blocks_cover

end Blocks

/-- The program's result is the product: the re-laid result array at row r is block r / 1024, row r % 1024 of the
    one function, which is row 1024 (r / 1024) + r % 1024 = r of the product. -/
theorem result_is_product (m : (ℓ : Loc nD τ sig) → Buf (Elt Ideal) ℓ) (c : Dev nD) :
    result (F := Ideal) m c = Cert.Spec.product (m ((c : Thread nD τ).loc main_arg0)) (m ((c : Thread nD τ).loc main_arg1)) := by
  rw [result_eq, final_array]
  funext i
  obtain ⟨r, n, rfl⟩ : ∃ (r : Fin 4096) (n : Fin 64), i = ix2 r n := ⟨i 0, i 1, eq_ix2 i⟩
  rw [relaid_apply]
  show dotAt _ _ ⟨1024 * (r.val / 1024) + r.val % 1024, _⟩ ⟨n.val, _⟩ = dotAt _ _ r n
  exact dotAt_congr _ _ (by show 1024 * (r.val / 1024) + r.val % 1024 = r.val; omega) rfl

end Cert.KernelIdeal.Hand

end
-- ==== Proof.RefValue.lean ====
/-
  The reference's one operation, the host's dot_general contracting the adjacency's columns with the embeddings'
  rows, is the matrix product at every entry: at the ideal instance it is the sum over the contracted coordinate.
-/
import proofs.«161664_g85925115724063_cont_9to1c4b_375_27_alg».proof.Proof.Gen.ReferenceIdeal.Read
import proofs.«161664_g85925115724063_cont_9to1c4b_375_27_alg».proof.Proof.Spec

noncomputable section

namespace Cert.ReferenceIdeal.RefValue

open Cert.ReferenceIdeal Cert.ReferenceIdeal.Gen Cert.ReferenceIdeal.Read Idealize.ShloMosaic Idealize.ShloMosaic.TcCoe

theorem ref_is_product (x0 : (⟨S4096x4096, .f32⟩ : BufTy).Contents (Elt Ideal)) (x1 : (⟨S4096x64, .f32⟩ : BufTy).Contents (Elt Ideal)) :
    val_main_v0 (F := Ideal) x0 x1 = Cert.Spec.product x0 x1 := by
  funext i
  rw [val_main_v0_apply]
  unfold Cert.Spec.product
  refine Finset.sum_congr rfl fun k _ => ?_
  congr 2
  · funext a; match a with
    | ⟨0, _⟩ => rfl
    | ⟨1, _⟩ => rfl
  · funext a; match a with
    | ⟨0, _⟩ => rfl
    | ⟨1, _⟩ => rfl

end Cert.ReferenceIdeal.RefValue

end
-- ==== Proof.lean ====
/-
  adj · embeds by a pipelined kernel against the host's matrix product.

  The kernel walks four grid points; at each it multiplies two consecutive 512-row chunks of the adjacency
  [4096, 4096] (re-laid as [8, 512, 4096] and read through two windows onto that one array) by the whole embedding
  block [4096, 64] on the matrix unit, and stores the two products one over the other into a [1, 1024, 64] block of a
  [4, 1024, 64] result, which a last host line re-lays as [4096, 64]. The reference is one dot_general.

  At the ideal instance a matrix-unit product into a zero accumulator and the host's dot_general are both the plain
  sum over the contracted coordinate, and the chunking and re-laying only rename rows: row j of block t is row
  1024 t + j of the product. So both programs end at `Cert.Spec.product` of their arguments, entry by entry; only
  sums are re-indexed, so the inputs' finiteness is never used.

  The frames of the two kernel programs are one argument, stated for any float instance over the idealized
  program's text (Proof/KI/) and laid out again over the word-level program's namespace (Proof/K/): the body's
  triple, the proof data with the shared adjacency array's share cut between its two windows, and the launch.
  The reference's frame is its run with the result dropped. The idealization rewrote nothing, so `preserves` states
  nothing.
-/
import proofs.«161664_g85925115724063_cont_9to1c4b_375_27_alg».proof.Defs
import proofs.«161664_g85925115724063_cont_9to1c4b_375_27_alg».proof.Proof.Gen.Kernel
import proofs.«161664_g85925115724063_cont_9to1c4b_375_27_alg».proof.Proof.Gen.Kernel.Skeleton
import proofs.«161664_g85925115724063_cont_9to1c4b_375_27_alg».proof.Proof.Gen.Kernel.Launch
import proofs.«161664_g85925115724063_cont_9to1c4b_375_27_alg».proof.Proof.Gen.Kernel.Points
import proofs.«161664_g85925115724063_cont_9to1c4b_375_27_alg».proof.Proof.Gen.KernelIdeal
import proofs.«161664_g85925115724063_cont_9to1c4b_375_27_alg».proof.Proof.Gen.KernelIdeal.Skeleton
import proofs.«161664_g85925115724063_cont_9to1c4b_375_27_alg».proof.Proof.Gen.KernelIdeal.Launch
import proofs.«161664_g85925115724063_cont_9to1c4b_375_27_alg».proof.Proof.Gen.KernelIdeal.Points
import proofs.«161664_g85925115724063_cont_9to1c4b_375_27_alg».proof.Proof.Gen.ReferenceIdeal
import proofs.«161664_g85925115724063_cont_9to1c4b_375_27_alg».proof.Proof.Gen.Pre_finite_inputs
import proofs.«161664_g85925115724063_cont_9to1c4b_375_27_alg».proof.Proof.Gen.ReferenceIdeal.Run
import proofs.«161664_g85925115724063_cont_9to1c4b_375_27_alg».proof.Proof.Gen.ReferenceIdeal.Read
import proofs.«161664_g85925115724063_cont_9to1c4b_375_27_alg».proof.Proof.K.Launch
import proofs.«161664_g85925115724063_cont_9to1c4b_375_27_alg».proof.Proof.KI.Launch
import proofs.«161664_g85925115724063_cont_9to1c4b_375_27_alg».proof.Proof.KI.Value
import proofs.«161664_g85925115724063_cont_9to1c4b_375_27_alg».proof.Proof.RefValue
import Idealize.ShloMosaic.Adequacy
import Idealize.ShloMosaic.Init

noncomputable section

namespace Cert.Proof

open Idealize.ShloMosaic Idealize.ShloMosaic.TcCoe Idealize.SL.Sem

/-- The program as printed runs and leaves both arguments as launched. -/
theorem frame_kernel : Cert.frame_Kernel := fun m ρ _ =>
  (θ_run Cert.Kernel.defs _ _).mono (fun _ h c => ⟨(h c).2.1, (h c).2.2⟩) (Cert.Kernel.Hand.run_main (F := Bits) m ρ)

/-- So does the idealized program. -/
theorem frame_kernelIdeal : Cert.frame_KernelIdeal := fun m ρ _ =>
  (θ_run Cert.KernelIdeal.defs _ _).mono (fun _ h c => ⟨(h c).2.1, (h c).2.2⟩) (Cert.KernelIdeal.Hand.run_main (F := Ideal) m ρ)

/-- The reference runs and leaves both arguments as launched. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the matrix product of the arguments. -/
theorem algebraic : Cert.algebraic_KernelIdeal_ReferenceIdeal := by
  intro m ρ m' ρ' _ hagree
  refine ⟨fun c => Cert.Spec.product (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨((h c).1).trans (Cert.KernelIdeal.Hand.result_is_product m c), (h c).2.1, (h c).2.2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v0_eq, Cert.ReferenceIdeal.RefValue.ref_is_product, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
